-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S128x64 : Shape := ⟨2, ![128, 64]⟩
abbrev S_ : Shape := ⟨0, ![]⟩
abbrev S1x1000000 : Shape := ⟨2, ![1, 1000000]⟩
abbrev S1000000 : Shape := ⟨1, ![1000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_v43 : IVec S_ 1) (main_v47 : IVec S1000000 1) (main_v51 : IVec S1000000 1) : IVec S_ 1 :=
  let main_v52 : IVec S1000000 1 := andi main_v47 main_v51
  let main_c_18 : IVec S_ 1 := constantI S_ 1 1#1
  let main_v53 : IVec S_ 1 := (fun x v => Host.reduce IntOp.andi x v reducesTo_S1000000_S_d0 h_S_) main_v52 main_c_18
  let main_v54 : IVec S_ 1 := andi main_v43 main_v53
  main_v54

def fn_part2 {F : FTy → Type} [FloatOps F] (main_arg1 : IVec S2x1000000 32) (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : IVec S1x1000000 32 := (extractStridedSlice S1x1000000 ![0, 0] · slices_S2x1000000_S1x1000000_0_0) main_arg1
  let main_v45 : IVec S1000000 32 := shapeCast S1000000 main_v44 shapeCasts_S1x1000000_S1000000
  let main_c_16 : IVec S_ 32 := constantI S_ 32 0#32
  let main_v46 : IVec S1000000 32 := broadcastInDim S1000000 ![] bcast_S_S1000000 main_c_16
  let main_v47 : IVec S1000000 1 := cmpi .sge main_v45 main_v46
  let main_v48 : IVec S1x1000000 32 := (extractStridedSlice S1x1000000 ![0, 0] · slices_S2x1000000_S1x1000000_0_0) main_arg1
  let main_v49 : IVec S1000000 32 := shapeCast S1000000 main_v48 shapeCasts_S1x1000000_S1000000
  let main_c_17 : IVec S_ 32 := constantI S_ 32 100000#32
  let main_v50 : IVec S1000000 32 := broadcastInDim S1000000 ![] bcast_S_S1000000 main_c_17
  let main_v51 : IVec S1000000 1 := cmpi .slt main_v49 main_v50
  fn_part3 (F := F) main_v43 main_v47 main_v51

def fn_part1 {F : FTy → Type} [FloatOps F] (main_arg1 : IVec S2x1000000 32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_v33

def fn {F : FTy → Type} [FloatOps F] (main_arg0 : FVec F S100000x64 .f32) (main_arg1 : IVec S2x1000000 32) (main_arg2 : IVec S100000 32) (main_arg3 : FVec F S64x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S128x64 : Shape := ⟨2, ![128, 64]⟩
abbrev S1x1000000 : Shape := ⟨2, ![1, 1000000]⟩
abbrev S1000000 : Shape := ⟨1, ![1000000]⟩
abbrev S1x64 : Shape := ⟨2, ![1, 64]⟩
abbrev S10000x64 : Shape := ⟨2, ![10000, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩

abbrev nBuf : Space → Nat
  | .hbm => 50
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S1x64, .f32⟩
  | .hbm, ⟨16, _⟩ => ⟨S1x64, .f32⟩
  | .hbm, ⟨17, _⟩ => ⟨S100000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1, .i32⟩
  | .hbm, ⟨27, _⟩ => ⟨S_, .i32⟩
  | .hbm, ⟨28, _⟩ => ⟨S1000000x1, .i32⟩
  | .hbm, ⟨29, _⟩ => ⟨S1000000x1, .i1⟩
  | .hbm, ⟨30, _⟩ => ⟨S1x1, .i32⟩
  | .hbm, ⟨31, _⟩ => ⟨S1000000x1, .i32⟩
  | .hbm, ⟨32, _⟩ => ⟨S1000000x1, .i1⟩
  | .hbm, ⟨33, _⟩ => ⟨S1000000x1, .i1⟩
  | .hbm, ⟨34, _⟩ => ⟨S_, .i1⟩
  | .hbm, ⟨35, _⟩ => ⟨S1000000, .i1⟩
  | .hbm, ⟨36, _⟩ => ⟨S1000000x64, .f32⟩
  | .hbm, ⟨37, _⟩ => ⟨S1000000x64, .i1⟩
  | .hbm, ⟨38, _⟩ => ⟨S_, .f32⟩
  | .hbm, ⟨39, _⟩ => ⟨S1000000x64, .f32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S64x64, .f32⟩
  | .hbm, ⟨46, _⟩ => ⟨S64x64, .f32⟩
  | .hbm, ⟨47, _⟩ => ⟨S1x64, .f32⟩
  | .hbm, ⟨48, _⟩ => ⟨S1x64, .f32⟩
  | .hbm, ⟨49, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  shapeCasts_S64x64_S64x64 : S64x64.ShapeCasts S64x64
  shapeCasts_S10000x64_S10000x64 : S10000x64.ShapeCasts S10000x64
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S128x64 : Shape := ⟨2, ![128, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S100000x128 : Shape := ⟨2, ![100000, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S1000000x64, .f32⟩
  | .hbm, ⟨25, _⟩ => ⟨S1x64, .f32⟩
  | .hbm, ⟨26, _⟩ => ⟨S1000000x64, .f32⟩
  | .hbm, ⟨27, _⟩ => ⟨S1000000x64, .f32⟩
  | .hbm, ⟨28, _⟩ => ⟨S_, .f32⟩
  | .hbm, ⟨29, _⟩ => ⟨S1000000x64, .f32⟩
  | .hbm, ⟨30, _⟩ => ⟨S1000000x64, .f32⟩
  | .hbm, ⟨31, _⟩ => ⟨S1000000x64, .f32⟩
  | .hbm, ⟨32, _⟩ => ⟨S1x64, .f32⟩
  | .hbm, ⟨33, _⟩ => ⟨S1000000x64, .f32⟩
  | .hbm, ⟨34, _⟩ => ⟨S1000000x64, .f32⟩
  | .hbm, ⟨35, _⟩ => ⟨S_, .f32⟩
  | .hbm, ⟨36, _⟩ => ⟨S100000x64, .f32⟩
  | .hbm, ⟨37, _⟩ => ⟨S1000000x1, .i32⟩
  | .hbm, ⟨38, _⟩ => ⟨S100000x64, .f32⟩
  | .hbm, ⟨39, _⟩ => ⟨S100000x128, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_cst : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The two row functions of the message-passing layer, over the extended reals, and the two laws that join the
  kernel's arrangement to the reference's.

  A node's feature row r (64 reals) goes through an affine layer, a ReLU and a second affine layer:
    msgRow w1 b1 w2 b2 r j = Σ_k max(Σ_i r_i · w1[i,k] + b1[k], 0) · w2[k,j] + b2[j].
  The output layer takes the node's own row rx and its aggregated messages ra. The reference multiplies the
  concatenated row [rx, ra] (128 reals) by a 128 × 64 matrix; the kernel multiplies rx by the matrix's top 64
  rows and ra by its bottom 64 rows and adds. A sum over 128 = 64 + 64 indices splits into the two sums with
  no condition on the summands (addition on the extended reals is commutative and associative), so the two
  arrangements agree: `outRow_eq`.
-/
import Idealize.ShloMosaic.PureOps.Ideal
import Idealize.ShloMosaic.Lib.ValueIdx

noncomputable section

open scoped BigOperators

namespace Cert.GraphLayer

open Idealize.ShloMosaic Idealize.ShloMosaic.ValueIdx

/-- A matrix of extended reals with literal extents. -/
abbrev Mat (r c : Nat) : Type := (⟨2, ![r, c]⟩ : Shape).Idx → EReal

/-- One affine layer applied to a row: Σ_i r_i · w[i,k] + b[k]. -/
def dense (r : Fin 64 → EReal) (w : Mat 64 64) (b : Fin 64 → EReal) (k : Fin 64) : EReal :=
  (∑ i : Fin 64, r i * w (ix2 i k)) + b k

/-- The message network on one row: affine, ReLU, affine. -/
def msgRow (w1 : Mat 64 64) (b1 : Fin 64 → EReal) (w2 : Mat 64 64) (b2 : Fin 64 → EReal) (r : Fin 64 → EReal)
    (j : Fin 64) : EReal :=
  dense (fun k => max (dense r w1 b1 k) 0) w2 b2 j

/-- The output network's first layer in the kernel's arrangement: the node's row against one 64 × 64 matrix
    plus the aggregated row against another, plus the bias. -/
def dense2 (rx ra : Fin 64 → EReal) (wa wb : Mat 64 64) (b : Fin 64 → EReal) (k : Fin 64) : EReal :=
  ((∑ i : Fin 64, rx i * wa (ix2 i k)) + (∑ i : Fin 64, ra i * wb (ix2 i k))) + b k

/-- The output network in the kernel's arrangement. -/
def outRowK (wa wb : Mat 64 64) (b1 : Fin 64 → EReal) (w2 : Mat 64 64) (b2 : Fin 64 → EReal)
    (rx ra : Fin 64 → EReal) (j : Fin 64) : EReal :=
  dense (fun k => max (dense2 rx ra wa wb b1 k) 0) w2 b2 j

/-- The top 64 rows of a 128 × 64 matrix. -/
def topRows (w : Mat 128 64) : Mat 64 64 := fun i => w (ix2 (Fin.castAdd 64 (i 0)) (i 1))
/-- The bottom 64 rows of a 128 × 64 matrix. -/
def botRows (w : Mat 128 64) : Mat 64 64 := fun i => w (ix2 (Fin.natAdd 64 (i 0)) (i 1))

/-- The concatenated row [rx, ra]. -/
def catRow (rx ra : Fin 64 → EReal) (i : Fin 128) : EReal := Fin.addCases (m := 64) (n := 64) rx ra i

/-- The output network's first layer in the reference's arrangement: the concatenated row against the whole
    128 × 64 matrix, plus the bias. -/
def denseCat (rx ra : Fin 64 → EReal) (w : Mat 128 64) (b : Fin 64 → EReal) (k : Fin 64) : EReal :=
  (∑ i : Fin 128, catRow rx ra i * w (ix2 i k)) + b k

/-- The output network in the reference's arrangement. -/
def outRowR (w : Mat 128 64) (b1 : Fin 64 → EReal) (w2 : Mat 64 64) (b2 : Fin 64 → EReal)
    (rx ra : Fin 64 → EReal) (j : Fin 64) : EReal :=
  dense (fun k => max (denseCat rx ra w b1 k) 0) w2 b2 j

/-- A sum over 128 = 64 + 64 indices is the sum over the first 64 plus the sum over the last 64. -/
theorem sum_split (f : Fin 128 → EReal) :
    ∑ i : Fin 128, f i = (∑ i : Fin 64, f (Fin.castAdd 64 i)) + ∑ i : Fin 64, f (Fin.natAdd 64 i) :=
  Fin.sum_univ_add (a := 64) (b := 64) f

/-- A sum over the 128 entries of the concatenated row is the sum over the node's 64 plus the sum over the
    aggregate's 64. -/
theorem denseCat_eq (rx ra : Fin 64 → EReal) (w : Mat 128 64) (b : Fin 64 → EReal) (k : Fin 64) :
    denseCat rx ra w b k = dense2 rx ra (topRows w) (botRows w) b k := by
  unfold denseCat dense2
  rw [sum_split]
  simp only [catRow, Fin.addCases_left, Fin.addCases_right, topRows, botRows]
  rfl

/-- The two arrangements of the output network agree. -/
theorem outRowR_eq (w : Mat 128 64) (b1 : Fin 64 → EReal) (w2 : Mat 64 64) (b2 : Fin 64 → EReal)
    (rx ra : Fin 64 → EReal) (j : Fin 64) :
    outRowR w b1 w2 b2 rx ra j = outRowK (topRows w) (botRows w) b1 w2 b2 rx ra j := by
  unfold outRowR outRowK
  simp only [denseCat_eq]

end Cert.GraphLayer

end
-- ==== Proof.Body.lean ====
/-
  The two kernel bodies at one element, over the extended reals.

  The message kernel's body stores, for a block x of 10000 node rows, the 10000 × 64 array
    (max(x · w1 + b1, 0)) · w2 + b2
  with both products taken into a zero accumulator and the biases broadcast along the rows. Read at row p and
  column q this is the message network `msgRow` applied to row p of x. The output kernel's body stores
    (max((x · wa + a · wb) + b1, 0)) · w2 + b2
  for a block x of node rows and the block a of their aggregated messages: at (p, q) the output network
  `outRowK` of row p of x and row p of a.
-/
import proofs.«414873_j6536940224659_4_alg».proof.Proof.Gen.KernelIdeal.Skeleton
import proofs.«414873_j6536940224659_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen Cert.GraphLayer
open Idealize.ShloMosaic Idealize.ShloMosaic.ValueIdx

/-! ## One product into the zero accumulator, at an element -/

/-- The left operand's row axis is not contracted: it carries the output's row. -/
private theorem lhs_dot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column axis is the contracted one. -/
private theorem lhs_dot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row axis is the contracted one. -/
private theorem rhs_dot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column axis is not contracted: it carries the output's column. -/
private theorem rhs_dot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A 10000 × 64 by 64 × 64 product into the zero accumulator, read at (p, q): Σ_i lhs[p,i] · rhs[i,q]. -/
private theorem matmul_zero_apply (lhs : FVec Ideal S10000x64 .f32) (rhs : FVec Ideal S64x64 .f32) (p : Fin 10000) (q : Fin 64) :
    matmul (F := Ideal) dot_S10000x64_S64x64_S10000x64_1_0_0_1_n_n none lhs rhs (constant S10000x64 .f32 0x00000000#32) (ix2 p q)
      = ∑ i : Fin 64, lhs (ix2 p i) * rhs (ix2 i q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-! ## The bias row and the hidden layer, at an element -/

/-- A 1 × 64 bias, cast to its own shape and broadcast along the 10000 rows, read at (p, q): the bias at q. -/
private theorem bias_apply (b : FVec Ideal S1x64 .f32) (p : Fin 10000) (q : Fin 64) :
    broadcastTo S10000x64 (shapeCast S1x64 b shapeCasts_S1x64_S1x64) broadcasts_S1x64_S10000x64 (ix2 p q) = b (ix2 0 q) := by
  rw [shapeCast_self b shapeCasts_S1x64_S1x64]
  exact broadcastTo_1b_ab_apply b broadcasts_S1x64_S10000x64 p q

/-- The ReLU of a 10000 × 64 array against the broadcast zero word, read at (p, k): max(v[p,k], 0). -/
private theorem relu_apply (v : FVec Ideal S10000x64 .f32) (p : Fin 10000) (k : Fin 64) :
    maximumf v (broadcast S10000x64 (Scalar.ofBits (F := Ideal) .f32 0x00000000#32)) (ix2 p k) = max (v (ix2 p k)) 0 := by
  show max (v (ix2 p k)) (Ideal.ofBits .f32 0x00000000#32) = _
  rw [Ideal.ofBits_zero_f32]

/-- The message kernel's stored value at row p, column q of the block. -/
theorem pay0_apply (x : Vec Ideal S10000x64 .f32) (w1 : Vec Ideal S64x64 .f32) (b1 : Vec Ideal S1x64 .f32)
    (w2 : Vec Ideal S64x64 .f32) (b2 : Vec Ideal S1x64 .f32) (p : Fin 10000) (q : Fin 64) :
    k0_pay1 (F := Ideal) x w1 b1 w2 b2 (ix2 p q)
      = msgRow w1 (fun k => b1 (ix2 0 k)) w2 (fun k => b2 (ix2 0 k)) (fun k => x (ix2 p k)) q := by
  unfold k0_pay1
  refine (addf_apply _ _ _).trans ?_
  refine (congrArg₂ (· + ·) (matmul_zero_apply _ w2 p q) (bias_apply b2 p q)).trans ?_
  show _ = (∑ k : Fin 64, max ((∑ i : Fin 64, x (ix2 p i) * w1 (ix2 i k)) + b1 (ix2 0 k)) 0 * w2 (ix2 k q)) + b2 (ix2 0 q)
  refine congrArg (· + b2 (ix2 0 q)) (Finset.sum_congr rfl fun k _ => ?_)
  refine congrArg (· * w2 (ix2 k q)) ?_
  refine (relu_apply _ p k).trans (congrArg (max · 0) ?_)
  refine (addf_apply _ _ _).trans ?_
  exact congrArg₂ (· + ·) (matmul_zero_apply x w1 p k) (bias_apply b1 p k)

/-- The output kernel's stored value at row p, column q of the block. The payload's operands are, in its
    own order: the node block, the top matrix, the aggregate block, the bottom matrix, the first bias, the
    second matrix, the second bias. -/
theorem pay1_apply (x : Vec Ideal S10000x64 .f32) (wa : Vec Ideal S64x64 .f32) (a : Vec Ideal S10000x64 .f32)
    (wb : Vec Ideal S64x64 .f32) (b1 : Vec Ideal S1x64 .f32) (w2 : Vec Ideal S64x64 .f32) (b2 : Vec Ideal S1x64 .f32)
    (p : Fin 10000) (q : Fin 64) :
    k1_pay1 (F := Ideal) x wa a wb b1 w2 b2 (ix2 p q)
      = outRowK wa wb (fun k => b1 (ix2 0 k)) w2 (fun k => b2 (ix2 0 k)) (fun k => x (ix2 p k)) (fun k => a (ix2 p k)) q := by
  unfold k1_pay1
  rw [shapeCast_self wa shapeCasts_S64x64_S64x64, shapeCast_self a shapeCasts_S10000x64_S10000x64,
    shapeCast_self wb shapeCasts_S64x64_S64x64]
  refine (addf_apply _ _ _).trans ?_
  refine (congrArg₂ (· + ·) (matmul_zero_apply _ w2 p q) (bias_apply b2 p q)).trans ?_
  show _ = (∑ k : Fin 64, max (((∑ i : Fin 64, x (ix2 p i) * wa (ix2 i k)) + (∑ i : Fin 64, a (ix2 p i) * wb (ix2 i k)))
      + b1 (ix2 0 k)) 0 * w2 (ix2 k q)) + b2 (ix2 0 q)
  refine congrArg (· + b2 (ix2 0 q)) (Finset.sum_congr rfl fun k _ => ?_)
  refine congrArg (· * w2 (ix2 k q)) ?_
  refine (relu_apply _ p k).trans (congrArg (max · 0) ?_)
  refine (addf_apply _ _ _).trans ?_
  refine congrArg₂ (· + ·) ?_ (bias_apply b1 p k)
  refine (addf_apply _ _ _).trans ?_
  exact congrArg₂ (· + ·) (matmul_zero_apply x wa p k) (matmul_zero_apply a wb p k)

end Cert.KernelIdeal.Body

end
-- ==== Proof.Region0.lean ====
/-
  What the message kernel's pipeline leaves in its output array.

  The grid has ten points; point t stages rows 10000·t … 10000·t + 9999 of the node array (window 0) and the
  whole of the two matrices and the two bias rows (windows 1 to 4), and writes rows 10000·t … of the output
  (window 5). The body's stored value at (p, q) is the message network of row p of the node block, so what
  point t writes back is block t of ONE whole-array function: row n of the output is the message network of
  row n of the node array. The ten blocks cover the 100000 rows, so the array after the run is that function.
-/
import proofs.«414873_j6536940224659_4_alg».proof.Proof.Gen.KernelIdeal.Frame
import proofs.«414873_j6536940224659_4_alg».proof.Proof.Body
import Idealize.ShloMosaic.Lib.Pipeline.Value

set_option maxRecDepth 16384

noncomputable section

open scoped BigOperators

namespace Cert.KernelIdeal.Region0

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The message array as one function of the arrays the region finds: row n is the message network of row n
    of the node array, with the region's own matrices and bias rows. -/
def msgArr (c : Dev nD) : Vec Ideal S100000x64 .f32 := fun i =>
  msgRow (V c main_arg3) (fun k => V c main_v4 (ix2 0 k)) (V c main_arg5) (fun k => V c main_v5 (ix2 0 k))
    (fun k => V c main_arg0 (ix2 (i 0) k)) (i 1)

/-! ## The index maps over the ten grid points -/

/-- The zero offsets of a whole-block access, however spelt. -/
private theorem hz : (![0, 0] : Fin 2 → Nat) = fun _ => 0 := funext fun a => by fin_cases a <;> rfl

/-- Over the ten grid points: the output window and the node window are at row block t, column block 0; the
    two matrices and the two bias rows stay at block (0, 0). -/
private theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ t.val < 10 :=
  (by decide +kernel : ∀ t : Fin grid0.N, _)

/-! ## The input blocks as parts of the arrays -/

/-- The first matrix's window stages the whole matrix at every point. -/
private theorem blk1_eq (c : Dev nD) (t : Fin cfg0.N) :
    (iblk0 (F := Ideal) V c 1 t : Vec Ideal S64x64 .f32) = V c main_arg3 := by
  obtain ⟨-, -, -, -, e0, e1, -⟩ := idx_facts t
  funext y
  show V c main_arg3 (((cfg0.win 1).blk t).view.emb y) = V c main_arg3 y
  refine congrArg _ ?_
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The first bias row's window stages the whole row at every point. -/
private theorem blk2_eq (c : Dev nD) (t : Fin cfg0.N) :
    (iblk0 (F := Ideal) V c 2 t : Vec Ideal S1x64 .f32) = V c main_v4 := by
  obtain ⟨-, -, -, -, -, -, e0, e1, -⟩ := idx_facts t
  funext y
  show V c main_v4 (((cfg0.win 2).blk t).view.emb y) = V c main_v4 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The second matrix's window stages the whole matrix at every point. -/
private theorem blk3_eq (c : Dev nD) (t : Fin cfg0.N) :
    (iblk0 (F := Ideal) V c 3 t : Vec Ideal S64x64 .f32) = V c main_arg5 := by
  obtain ⟨-, -, -, -, -, -, -, -, e0, e1, -⟩ := idx_facts t
  funext y
  show V c main_arg5 (((cfg0.win 3).blk t).view.emb y) = V c main_arg5 y
  refine congrArg _ ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The second bias row's window stages the whole row at every point. -/
private theorem blk4_eq (c : Dev nD) (t : Fin cfg0.N) :
    (iblk0 (F := Ideal) V c 4 t : Vec Ideal S1x64 .f32) = V c main_v5 := by
  obtain ⟨-, -, -, -, -, -, -, -, -, -, e0, e1, -⟩ := idx_facts t
  funext y
  show V c main_v5 (((cfg0.win 4).blk t).view.emb y) = V c main_v5 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Row p of the node window's block at point t is row 10000·t + p of the node array. -/
private theorem blk0_apply (c : Dev nD) (t : Fin cfg0.N) (p : Fin 10000) (k : Fin 64) (n : Fin 100000)
    (hn : n.val = t.val * 10000 + p.val) :
    (iblk0 (F := Ideal) V c 0 t : Vec Ideal S10000x64 .f32) (ix2 p k) = V c main_arg0 (ix2 n k) := by
  obtain ⟨-, -, e0, e1, -⟩ := idx_facts t
  show V c main_arg0 (((cfg0.win 0).blk t).view.emb (ix2 p k)) = V c main_arg0 (ix2 n k)
  refine congrArg _ ?_
  funext a; apply Fin.ext
  match a with
  | ⟨0, _⟩ => show win0_0.index t (0 : Fin 2) * 10000 + 1 * p.val = n.val; omega
  | ⟨1, _⟩ => show win0_0.index t (1 : Fin 2) * 64 + 1 * k.val = k.val; omega

/-! ## What a grid point writes back -/

/-- The body's stored value at (p, q), when the node block's row p is row n of a node array X and the other
    four blocks are the whole arrays: the message network of row n of X. -/
private theorem pay_of_blocks (x : Vec Ideal S10000x64 .f32) (w1 : Vec Ideal S64x64 .f32) (b1 : Vec Ideal S1x64 .f32)
    (w2 : Vec Ideal S64x64 .f32) (b2 : Vec Ideal S1x64 .f32)
    (X : Vec Ideal S100000x64 .f32) (W1 : Vec Ideal S64x64 .f32) (B1 : Vec Ideal S1x64 .f32)
    (W2 : Vec Ideal S64x64 .f32) (B2 : Vec Ideal S1x64 .f32)
    (p : Fin 10000) (q : Fin 64) (n : Fin 100000)
    (hx : ∀ k : Fin 64, x (ix2 p k) = X (ix2 n k)) (h1 : w1 = W1) (h2 : b1 = B1) (h3 : w2 = W2) (h4 : b2 = B2) :
    k0_pay1 (F := Ideal) x w1 b1 w2 b2 (ix2 p q)
      = msgRow W1 (fun k => B1 (ix2 0 k)) W2 (fun k => B2 (ix2 0 k)) (fun k => X (ix2 n k)) q := by
  subst h1 h2 h3 h4
  refine (Cert.KernelIdeal.Body.pay0_apply x w1 b1 w2 b2 p q).trans ?_
  exact congrArg (fun r => msgRow w1 (fun k => b1 (ix2 0 k)) w2 (fun k => b2 (ix2 0 k)) r q) (funext hx)

/-- The message array at an index whose row is n and whose column is q. -/
private theorem msgArr_apply (c : Dev nD) (i : S100000x64.Idx) (n : Fin 100000) (q : Fin 64)
    (h0 : (i 0).val = n.val) (h1 : (i 1).val = q.val) :
    msgArr V c i = msgRow (V c main_arg3) (fun k => V c main_v4 (ix2 0 k)) (V c main_arg5)
      (fun k => V c main_v5 (ix2 0 k)) (fun k => V c main_arg0 (ix2 n k)) q := by
  obtain ⟨a, b, rfl⟩ : ∃ (a : Fin 100000) (b : Fin 64), i = ix2 a b := ⟨i 0, i 1, eq_ix2 i⟩
  obtain rfl : a = n := Fin.ext h0
  obtain rfl : b = q := Fin.ext h1
  rfl

/-- Point t writes back block t of the message array. -/
private theorem flushed_eq (c : Dev nD) (t : Fin cfg0.N) :
    (dat0 (F := Ideal) V c).flushed 5 t = ((cfg0.win 5).blk t).view.read (Elt Ideal) (msgArr V c) := by
  show (cfg0.win 5).cut (grid0.coords t) ((dat0 (F := Ideal) V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨e0, e1, -, -, -, -, -, -, -, -, -, -, ht⟩ := idx_facts t
  funext j
  change S10000x64.Idx at j
  obtain ⟨p, q, rfl⟩ : ∃ (p : Fin 10000) (q : Fin 64), j = ix2 p q := ⟨j 0, j 1, eq_ix2 j⟩
  have hn : t.val * 10000 + p.val < 100000 := by have := p.isLt; omega
  show k0_pay1 (F := Ideal) (iblk0 V c 0 t) (iblk0 V c 1 t) (iblk0 V c 2 t) (iblk0 V c 3 t) (iblk0 V c 4 t) (ix2 p q)
    = msgArr V c (((cfg0.win 5).blk t).view.emb (ix2 p q))
  refine (pay_of_blocks (iblk0 V c 0 t) (iblk0 V c 1 t) (iblk0 V c 2 t) (iblk0 V c 3 t) (iblk0 V c 4 t)
    (V c main_arg0) (V c main_arg3) (V c main_v4) (V c main_arg5) (V c main_v5) p q ⟨t.val * 10000 + p.val, hn⟩
    (fun k => blk0_apply V c t p k ⟨t.val * 10000 + p.val, hn⟩ rfl)
    (blk1_eq V c t) (blk2_eq V c t) (blk3_eq V c t) (blk4_eq V c t)).trans
    (msgArr_apply V c (((cfg0.win 5).blk t).view.emb (ix2 p q)) ⟨t.val * 10000 + p.val, hn⟩ q ?_ ?_).symm
  · show win0_5.index t (0 : Fin 2) * 10000 + 1 * p.val = t.val * 10000 + p.val
    omega
  · show win0_5.index t (1 : Fin 2) * 64 + 1 * q.val = q.val
    omega

/-! ## The ten blocks cover the array -/

/-- An index of the output array is in point t's block iff each coordinate is in the block's range on its axis. -/
private theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v6).slice (win0_5.rect t)).set ↔ _
  rw [View.set_slice_whole, Rect.mem_set_unit]
  exact Iff.rfl

/-- Row r of the output array lies in the block of point r / 10000, which is written back. -/
private theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 10000 < cfg0.N := by show _ < 10; omega
  obtain ⟨t, ht⟩ : ∃ t : Fin cfg0.N, t.val = (i 0).val / 10000 := ⟨⟨_, hN⟩, rfl⟩
  refine ⟨t, flush0_5 t, ?_⟩
  rw [mem_blk]
  obtain ⟨e0, e1, -⟩ := idx_facts t
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 64 ≤ (i 1).val ∧ (i 1).val < win0_5.index t (1 : Fin 2) * 64 + 64
    omega

/-- The output window's array after the ten grid points. -/
theorem arr0 (c : Dev nD) : (dat0 (F := Ideal) V c).arrAt 5 cfg0.N = msgArr V c :=
  (dat0 (F := Ideal) V c).arrAt_eq_of_cover 5 (msgArr V c) (fun t _ => flushed_eq V c t) cover

end Cert.KernelIdeal.Region0

end
-- ==== Proof.Region1.lean ====
/-
  What the output kernel's pipeline leaves in its output array.

  The grid has ten points; point t stages rows 10000·t … 10000·t + 9999 of the node array (window 0) and of the
  aggregated-message array (window 1), the whole of the three matrices and two bias rows (windows 2 to 6), and
  writes the same rows of the output (window 7). The body's stored value at (p, q) is the output network of
  row p of the node block and row p of the aggregate block, so what point t writes back is block t of one
  whole-array function, and the ten blocks cover the 100000 rows.
-/
import proofs.«414873_j6536940224659_4_alg».proof.Proof.Gen.KernelIdeal.Frame
import proofs.«414873_j6536940224659_4_alg».proof.Proof.Body
import Idealize.ShloMosaic.Lib.Pipeline.Value

set_option maxRecDepth 16384

noncomputable section

open scoped BigOperators

namespace Cert.KernelIdeal.Region1

open Cert.KernelIdeal Cert.KernelIdeal.Gen Cert.GraphLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output array as one function of the arrays the region finds: row n is the output network of row n of
    the node array and row n of the aggregate array. -/
def outArr (c : Dev nD) : Vec Ideal S100000x64 .f32 := fun i =>
  outRowK (V c main_v11) (V c main_v12) (fun k => V c main_v13 (ix2 0 k)) (V c main_arg9) (fun k => V c main_v14 (ix2 0 k))
    (fun k => V c main_arg0 (ix2 (i 0) k)) (fun k => V c main_v10 (ix2 (i 0) k)) (i 1)

/-- The zero offsets of a whole-buffer access, as the constant function. -/
theorem hz : (![0, 0] : Fin 2 → Nat) = fun _ => 0 :=
  funext fun a => by match a with | ⟨0, _⟩ => rfl | ⟨1, _⟩ => rfl

/-- The printed index maps over the ten grid points: the output window's block index is (t, 0); the two
    row-blocked input windows move with it; the matrices and bias rows stay at block (0, 0). -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The output network depends on its operands only through their entries. -/
theorem blk_eq (x0 x1 : Vec Ideal S10000x64 .f32) (x2 x3 : Vec Ideal S64x64 .f32) (x4 : Vec Ideal S1x64 .f32)
    (x5 : Vec Ideal S64x64 .f32) (x6 : Vec Ideal S1x64 .f32)
    (A0 A1 : Vec Ideal S100000x64 .f32) (B2 B3 : Vec Ideal S64x64 .f32) (B4 : Vec Ideal S1x64 .f32)
    (B5 : Vec Ideal S64x64 .f32) (B6 : Vec Ideal S1x64 .f32)
    (p : Fin 10000) (q : Fin 64) (r : Fin 100000)
    (h0 : ∀ k : Fin 64, x0 (ix2 p k) = A0 (ix2 r k)) (h1 : ∀ k : Fin 64, x1 (ix2 p k) = A1 (ix2 r k))
    (h2 : x2 = B2) (h3 : x3 = B3) (h4 : x4 = B4) (h5 : x5 = B5) (h6 : x6 = B6) :
    k1_pay1 (F := Ideal) x0 x2 x1 x3 x4 x5 x6 (ix2 p q)
      = outRowK B2 B3 (fun k => B4 (ix2 0 k)) B5 (fun k => B6 (ix2 0 k)) (fun k => A0 (ix2 r k)) (fun k => A1 (ix2 r k)) q := by
  subst h2 h3 h4 h5 h6
  rw [Cert.KernelIdeal.Body.pay1_apply]
  simp only [h0, h1]

/-- A row-blocked input window's block at point t, at (p, k), is its array at row 10000 t + p: the node array. -/
theorem blk0_apply (c : Dev nD) (t : Fin cfg1.N) (p : Fin 10000) (k : Fin 64) (r : Fin 100000)
    (hr : r.val = t.val * 10000 + p.val) :
    (iblk1 (F := Ideal) V c 0 t : Vec Ideal S10000x64 .f32) (ix2 p k)
      = (V c main_arg0 : Vec Ideal S100000x64 .f32) (ix2 r k) := by
  obtain ⟨-, -, e0, e1, -⟩ := idx_facts t
  show V c main_arg0 (((cfg1.win 0).blk t).view.emb (ix2 p k)) = V c main_arg0 (ix2 r k)
  refine congrArg _ ?_
  funext a; apply Fin.ext
  match a with
  | ⟨0, _⟩ => show win1_0.index t (0 : Fin 2) * 10000 + 1 * p.val = r.val; omega
  | ⟨1, _⟩ => show win1_0.index t (1 : Fin 2) * 64 + 1 * k.val = k.val; omega

/-- The same for the aggregate array. -/
theorem blk1_apply (c : Dev nD) (t : Fin cfg1.N) (p : Fin 10000) (k : Fin 64) (r : Fin 100000)
    (hr : r.val = t.val * 10000 + p.val) :
    (iblk1 (F := Ideal) V c 1 t : Vec Ideal S10000x64 .f32) (ix2 p k)
      = (V c main_v10 : Vec Ideal S100000x64 .f32) (ix2 r k) := by
  obtain ⟨-, -, -, -, e0, e1, -⟩ := idx_facts t
  show V c main_v10 (((cfg1.win 1).blk t).view.emb (ix2 p k)) = V c main_v10 (ix2 r k)
  refine congrArg _ ?_
  funext a; apply Fin.ext
  match a with
  | ⟨0, _⟩ => show win1_1.index t (0 : Fin 2) * 10000 + 1 * p.val = r.val; omega
  | ⟨1, _⟩ => show win1_1.index t (1 : Fin 2) * 64 + 1 * k.val = k.val; omega

/-- A whole-array window's block is its array, at every point: the top matrix. -/
theorem blk2_eq (c : Dev nD) (t : Fin cfg1.N) :
    (iblk1 (F := Ideal) V c 2 t : Vec Ideal S64x64 .f32) = (V c main_v11 : Vec Ideal S64x64 .f32) := by
  obtain ⟨-, -, -, -, -, -, e0, e1, -⟩ := idx_facts t
  funext y
  show V c main_v11 (((cfg1.win 2).blk t).view.emb y) = V c main_v11 y
  refine congrArg _ ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bottom matrix. -/
theorem blk3_eq (c : Dev nD) (t : Fin cfg1.N) :
    (iblk1 (F := Ideal) V c 3 t : Vec Ideal S64x64 .f32) = (V c main_v12 : Vec Ideal S64x64 .f32) := by
  obtain ⟨-, -, -, -, -, -, -, -, e0, e1, -⟩ := idx_facts t
  funext y
  show V c main_v12 (((cfg1.win 3).blk t).view.emb y) = V c main_v12 y
  refine congrArg _ ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The first bias row. -/
theorem blk4_eq (c : Dev nD) (t : Fin cfg1.N) :
    (iblk1 (F := Ideal) V c 4 t : Vec Ideal S1x64 .f32) = (V c main_v13 : Vec Ideal S1x64 .f32) := by
  obtain ⟨-, -, -, -, -, -, -, -, -, -, e0, e1, -⟩ := idx_facts t
  funext y
  show V c main_v13 (((cfg1.win 4).blk t).view.emb y) = V c main_v13 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The second matrix. -/
theorem blk5_eq (c : Dev nD) (t : Fin cfg1.N) :
    (iblk1 (F := Ideal) V c 5 t : Vec Ideal S64x64 .f32) = (V c main_arg9 : Vec Ideal S64x64 .f32) := by
  obtain ⟨-, -, -, -, -, -, -, -, -, -, -, -, e0, e1, -⟩ := idx_facts t
  funext y
  show V c main_arg9 (((cfg1.win 5).blk t).view.emb y) = V c main_arg9 y
  refine congrArg _ ?_
  funext a; apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- The second bias row. -/
theorem blk6_eq (c : Dev nD) (t : Fin cfg1.N) :
    (iblk1 (F := Ideal) V c 6 t : Vec Ideal S1x64 .f32) = (V c main_v14 : Vec Ideal S1x64 .f32) := by
  obtain ⟨-, -, -, -, -, -, -, -, -, -, -, -, -, -, e0, e1⟩ := idx_facts t
  funext y
  show V c main_v14 (((cfg1.win 6).blk t).view.emb y) = V c main_v14 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- Where the output window's block at point t puts its entry (p, q): row 10000 t + p, column q. -/
theorem emb7 (t : Fin cfg1.N) (p : Fin 10000) (q : Fin 64) (r : Fin 100000) (hr : r.val = t.val * 10000 + p.val) :
    (((cfg1.win 7).blk t).view.emb (ix2 p q) : S100000x64.Idx) = ix2 r q := by
  obtain ⟨e0, e1, -⟩ := idx_facts t
  funext a; apply Fin.ext
  match a with
  | ⟨0, _⟩ => show win1_7.index t (0 : Fin 2) * 10000 + 1 * p.val = r.val; omega
  | ⟨1, _⟩ => show win1_7.index t (1 : Fin 2) * 64 + 1 * q.val = q.val; omega

/-- What point t writes back is block t of the whole-array function. -/
theorem flushed_eq (c : Dev nD) (t : Fin cfg1.N) :
    (dat1 (F := Ideal) V c).flushed 7 t = ((cfg1.win 7).blk t).view.read (Elt Ideal) (outArr V c) := by
  show (cfg1.win 7).cut (grid1.coords t) ((dat1 (F := Ideal) V c).after 7 t) = _
  rw [after1_7]
  unfold out1_7
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  have hN : t.val < 10 := t.isLt
  have hr : t.val * 10000 + p.val < 100000 := by have := p.isLt; omega
  show k1_pay1 (F := Ideal) (iblk1 V c 0 t) (iblk1 V c 2 t) (iblk1 V c 1 t) (iblk1 V c 3 t) (iblk1 V c 4 t) (iblk1 V c 5 t) (iblk1 V c 6 t) (ix2 p q)
    = outArr V c (((cfg1.win 7).blk t).view.emb (ix2 p q))
  rw [emb7 t p q ⟨t.val * 10000 + p.val, hr⟩ rfl]
  exact blk_eq (iblk1 V c 0 t) (iblk1 V c 1 t) (iblk1 V c 2 t) (iblk1 V c 3 t) (iblk1 V c 4 t) (iblk1 V c 5 t) (iblk1 V c 6 t)
    (V c main_arg0) (V c main_v10) (V c main_v11) (V c main_v12) (V c main_v13) (V c main_arg9) (V c main_v14)
    p q ⟨t.val * 10000 + p.val, hr⟩
    (fun k => blk0_apply V c t p k _ rfl) (fun k => blk1_apply V c t p k _ rfl)
    (blk2_eq V c t) (blk3_eq V c t) (blk4_eq V c t) (blk5_eq V c t) (blk6_eq V c t)

/-- An index of the output array is in point t's block iff each coordinate is in the block's range on its axis. -/
theorem mem_blk (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v15).slice (win1_7.rect t)).set ↔ _
  rw [View.set_slice_whole, Rect.mem_set_unit]
  exact Iff.rfl

/-- Row r of the output lies in the block of point r / 10000: the ten blocks cover the array. -/
theorem cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have ht : (i 0).val / 10000 < 10 := by omega
  refine ⟨⟨(i 0).val / 10000, ht⟩, flush1_7 _, ?_⟩
  obtain ⟨e0, e1, -⟩ := idx_facts ⟨(i 0).val / 10000, ht⟩
  rw [mem_blk]
  intro a
  match a with
  | ⟨0, _⟩ =>
    show win1_7.index ⟨(i 0).val / 10000, ht⟩ (0 : Fin 2) * 10000 ≤ (i 0).val ∧ (i 0).val < win1_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_7.index ⟨(i 0).val / 10000, ht⟩ (1 : Fin 2) * 64 ≤ (i 1).val ∧ (i 1).val < win1_7.index ⟨(i 0).val / 10000, ht⟩ (1 : Fin 2) * 64 + 64
    rw [e1]; omega

/-- The output window's array after the ten grid points. -/
theorem arr1 (c : Dev nD) : (dat1 (F := Ideal) V c).arrAt 7 cfg1.N = outArr V c :=
  (dat1 (F := Ideal) V c).arrAt_eq_of_cover 7 (outArr V c) (fun t _ => flushed_eq V c t) cover

end Cert.KernelIdeal.Region1

end
-- ==== Proof.HostTerms.lean ====
/-
  The host values the kernel program computes around its two regions, as functions of the arrays they are
  computed from: each edge's source and target index (the two rows of the edge table), the source index
  wrapped once when negative and laid out as a column of start indices, the per-edge range test, the rows of
  an array taken at the source indices with out-of-range rows filled, and the taken rows summed into their
  target nodes.
-/
import proofs.«414873_j6536940224659_4_alg».proof.Proof.Gen.KernelIdeal
import Idealize.ShloMosaic.PureOps.Ideal

noncomputable section

namespace Cert.KernelIdeal.Host

open Cert.KernelIdeal Cert.KernelIdeal.Gen
open Idealize.ShloMosaic

section Terms
variable {F : FTy → Type} [FloatOps F]

/-- Each edge's source-node index: row 0 of the edge table. -/
def srcIdx (e : IVec S2x1000000 32) : IVec S1000000 32 :=
  shapeCast _ (extractStridedSlice S1x1000000 ![0, 0] e slices_S2x1000000_S1x1000000_0_0) shapeCasts_S1x1000000_S1000000
/-- Each edge's target-node index: row 1 of the edge table. -/
def dstIdx (e : IVec S2x1000000 32) : IVec S1000000 32 :=
  shapeCast _ (extractStridedSlice S1x1000000 ![1, 0] e slices_S2x1000000_S1x1000000_1_0) shapeCasts_S1x1000000_S1000000
/-- A negative index wraps once (100000 is added); the result as a column of start indices. -/
def wrapIdx (r : IVec S1000000 32) : IVec S1000000x1 32 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 100000#32))) r)
/-- Per edge: is the wrapped index within 0 … 99999? -/
def inRange (ib : IVec S1000000x1 32) : IVec S1000000 1 :=
  Host.reduce IntOp.andi
    (andi (cmpi .sge ib (broadcastInDim S1000000x1 ![] bcast_S_S1000000x1 (constantI S_ 32 0#32)))
      (cmpi .sle ib (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_
/-- The rows of `Y` taken at the edges' source indices; an out-of-range index gives a row of the fill pattern. -/
def takeRows (Y : FVec F S100000x64 .f32) (r : IVec S1000000 32) : FVec F S1000000x64 .f32 :=
  select (broadcastInDim S1000000x64 ![0] bcast_S1000000_S1000000x64_0 (inRange (wrapIdx r)))
    (Host.gather gather_S100000x64_S1000000x1_S1000000x64_1_0_n_n_0_1_164 Y (wrapIdx r))
    (broadcastInDim S1000000x64 ![] bcast_S_S1000000x64 (constant S_ .f32 0x7FC00000#32))
/-- The taken rows summed into their target nodes, from zero. -/
def aggK (Y : FVec F S100000x64 .f32) (e : IVec S2x1000000 32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 (dstIdx e))
    (takeRows Y (srcIdx e))

end Terms

end Cert.KernelIdeal.Host

end
-- ==== Proof.HostK.lean ====
/-
  The host operations around the two kernel regions, read back.

  Before the message kernel the program slices the edge table into its source row and its target row and
  reshapes the two message biases to 1 × 64 rows. Between the regions it takes, for every edge, the message
  row of the edge's source node (out-of-range sources are filled with a NaN pattern; negative ones wrap
  once), sums the taken rows into their target nodes, slices the 128 × 64 output matrix into its top and
  bottom halves and reshapes the two output biases. With those values named as functions of the arrays they
  are computed from (`srcIdx`, `dstIdx`, `wrapIdx`, `inRange`, `takeRows`, `aggK`), this module says what each
  region finds in each of its windows' arrays.
-/
import proofs.«414873_j6536940224659_4_alg».proof.Proof.Gen.KernelIdeal.Frame
import proofs.«414873_j6536940224659_4_alg».proof.Proof.Spec
import proofs.«414873_j6536940224659_4_alg».proof.Proof.HostTerms
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Host

open Cert.KernelIdeal Cert.KernelIdeal.Gen Cert.GraphLayer
open Idealize.ShloMosaic Idealize.ShloMosaic.TcCoe Idealize.ShloMosaic.ValueIdx Idealize.SL.Sem

variable (m : (ℓ : Loc nD τ sig) → Buf (Elt Ideal) ℓ) (ρ : Dev nD → PrngReg)

/-- No operation of a literal stretch writes the buffer: the stretch leaves it as it was. -/
local macro "stretch_keeps" : tactic =>
  `(tactic| (refine StableHlo.after_of_forall_not_mem _ _ (List.forall_iff_forall_mem.mp ?_)
             simp only [hostOps0, hostOps1, hostOps1_1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## What the message kernel's region finds -/

theorem V1_arg0 (c : Dev nD) : V1 m ρ c main_arg0 = m ((c : Thread nD τ).loc main_arg0) := by
  show StableHlo.after hostOps0 (W0 m ρ c) (Proc.devRef .tc main_arg0) = W0 m ρ c (Proc.devRef .tc main_arg0)
  stretch_keeps
theorem V1_arg3 (c : Dev nD) : V1 m ρ c main_arg3 = m ((c : Thread nD τ).loc main_arg3) := by
  show StableHlo.after hostOps0 (W0 m ρ c) (Proc.devRef .tc main_arg3) = W0 m ρ c (Proc.devRef .tc main_arg3)
  stretch_keeps
theorem V1_arg5 (c : Dev nD) : V1 m ρ c main_arg5 = m ((c : Thread nD τ).loc main_arg5) := by
  show StableHlo.after hostOps0 (W0 m ρ c) (Proc.devRef .tc main_arg5) = W0 m ρ c (Proc.devRef .tc main_arg5)
  stretch_keeps
/-- The first message bias as a 1 × 64 row. -/
theorem V1_v4 (c : Dev nD) (k : Fin 64) : V1 m ρ c main_v4 (ix2 0 k) = m ((c : Thread nD τ).loc main_arg4) (ix1 k) := by
  have e : (V1 m ρ c main_v4 : S1x64.Idx → Ideal .f32)
      = shapeCast S1x64 (m ((c : Thread nD τ).loc main_arg4) : S64.Idx → Ideal .f32) shapeCasts_S64_S1x64 := by
    show StableHlo.after hostOps0 (W0 m ρ c) (Proc.devRef .tc main_v4) = _
    after_results; rfl
  exact (congrFun e (ix2 0 k)).trans (shapeCast_a_1a_apply _ _ 0 k)
/-- The second message bias as a 1 × 64 row. -/
theorem V1_v5 (c : Dev nD) (k : Fin 64) : V1 m ρ c main_v5 (ix2 0 k) = m ((c : Thread nD τ).loc main_arg6) (ix1 k) := by
  have e : (V1 m ρ c main_v5 : S1x64.Idx → Ideal .f32)
      = shapeCast S1x64 (m ((c : Thread nD τ).loc main_arg6) : S64.Idx → Ideal .f32) shapeCasts_S64_S1x64 := by
    show StableHlo.after hostOps0 (W0 m ρ c) (Proc.devRef .tc main_v5) = _
    after_results; rfl
  exact (congrFun e (ix2 0 k)).trans (shapeCast_a_1a_apply _ _ 0 k)

/-! ## What the output kernel's region finds -/

/-- The slice of rows 0 … 63 is the top half. -/
private theorem slice_top (w : Mat 128 64) (h : S128x64.Slices ![0, 0] S64x64) :
    extractStridedSlice S64x64 ![0, 0] w h = topRows w := by
  funext i
  unfold topRows
  exact extractStridedSlice_apply _ _ _ i _ (fun a => by
    match a with
    | ⟨0, _⟩ => exact (Nat.zero_add _).symm
    | ⟨1, _⟩ => exact (Nat.zero_add _).symm)

/-- The slice of rows 64 … 127 is the bottom half. -/
private theorem slice_bot (w : Mat 128 64) (h : S128x64.Slices ![64, 0] S64x64) :
    extractStridedSlice S64x64 ![64, 0] w h = botRows w := by
  funext i
  unfold botRows
  exact extractStridedSlice_apply _ _ _ i _ (fun a => by
    match a with
    | ⟨0, _⟩ => exact rfl
    | ⟨1, _⟩ => exact (Nat.zero_add _).symm)

/-- An argument that no host operation writes and that is no array of the message kernel's region holds, after the
    call of the take, what was launched. -/
private theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by stretch_keeps
    _ = W1 m ρ c (Proc.devRef .tc main_arg7) := W2_of_ne m ρ c main_arg7 (by decide)
    _ = W0 m ρ c (Proc.devRef .tc main_arg7) := by stretch_keeps
    _ = m ((c : Thread nD τ).loc main_arg7) := rfl
private theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by stretch_keeps
    _ = W1 m ρ c (Proc.devRef .tc main_arg8) := W2_of_ne m ρ c main_arg8 (by decide)
    _ = W0 m ρ c (Proc.devRef .tc main_arg8) := by stretch_keeps
    _ = m ((c : Thread nD τ).loc main_arg8) := rfl
private theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by stretch_keeps
    _ = W1 m ρ c (Proc.devRef .tc main_arg10) := W2_of_ne m ρ c main_arg10 (by decide)
    _ = W0 m ρ c (Proc.devRef .tc main_arg10) := by stretch_keeps
    _ = m ((c : Thread nD τ).loc main_arg10) := rfl

theorem V4_arg0 (c : Dev nD) : V4 m ρ c main_arg0 = m ((c : Thread nD τ).loc main_arg0) :=
  calc W4 m ρ c (Proc.devRef .tc main_arg0)
    _ = W3 m ρ c (Proc.devRef .tc main_arg0) := by stretch_keeps
    _ = W2 m ρ c (Proc.devRef .tc main_arg0) := by stretch_keeps
    _ = W1 m ρ c (Proc.devRef .tc main_arg0) :=
        (W2_arr m ρ c 0).trans (((dat0 (V1 m ρ) c).arrAt_in 0 rfl _).trans (A_eq0 (V1 m ρ) c 0))
    _ = m ((c : Thread nD τ).loc main_arg0) := V1_arg0 m ρ c
theorem V4_arg9 (c : Dev nD) : V4 m ρ c main_arg9 = m ((c : Thread nD τ).loc main_arg9) :=
  calc W4 m ρ c (Proc.devRef .tc main_arg9)
    _ = W3 m ρ c (Proc.devRef .tc main_arg9) := by stretch_keeps
    _ = W2 m ρ c (Proc.devRef .tc main_arg9) := by stretch_keeps
    _ = W1 m ρ c (Proc.devRef .tc main_arg9) := W2_of_ne m ρ c main_arg9 (by decide)
    _ = W0 m ρ c (Proc.devRef .tc main_arg9) := by stretch_keeps
    _ = m ((c : Thread nD τ).loc main_arg9) := rfl
/-- The top half of the output matrix. -/
theorem V4_v11 (c : Dev nD) : V4 m ρ c main_v11 = topRows (m ((c : Thread nD τ).loc main_arg7)) := by
  have e : (V4 m ρ c main_v11 : S64x64.Idx → Ideal .f32)
      = extractStridedSlice S64x64 ![0, 0] (W3 m ρ c (Proc.devRef .tc main_arg7) : S128x64.Idx → Ideal .f32)
          slices_S128x64_S64x64_0_0 := by
    show StableHlo.after hostOps1_1 (W3 m ρ c) (Proc.devRef .tc main_v11) = _
    after_results
  rw [e, W3_arg7]
  exact slice_top _ _
/-- The bottom half of the output matrix. -/
theorem V4_v12 (c : Dev nD) : V4 m ρ c main_v12 = botRows (m ((c : Thread nD τ).loc main_arg7)) := by
  have e : (V4 m ρ c main_v12 : S64x64.Idx → Ideal .f32)
      = extractStridedSlice S64x64 ![64, 0] (W3 m ρ c (Proc.devRef .tc main_arg7) : S128x64.Idx → Ideal .f32)
          slices_S128x64_S64x64_64_0 := by
    show StableHlo.after hostOps1_1 (W3 m ρ c) (Proc.devRef .tc main_v12) = _
    after_results
  rw [e, W3_arg7]
  exact slice_bot _ _
/-- The first output bias as a 1 × 64 row. -/
theorem V4_v13 (c : Dev nD) (k : Fin 64) : V4 m ρ c main_v13 (ix2 0 k) = m ((c : Thread nD τ).loc main_arg8) (ix1 k) := by
  have e : (V4 m ρ c main_v13 : S1x64.Idx → Ideal .f32)
      = shapeCast S1x64 (W3 m ρ c (Proc.devRef .tc main_arg8) : S64.Idx → Ideal .f32) shapeCasts_S64_S1x64 := by
    show StableHlo.after hostOps1_1 (W3 m ρ c) (Proc.devRef .tc main_v13) = _
    after_results; rfl
  rw [e, W3_arg8]
  exact shapeCast_a_1a_apply _ _ 0 k
/-- The second output bias as a 1 × 64 row. -/
theorem V4_v14 (c : Dev nD) (k : Fin 64) : V4 m ρ c main_v14 (ix2 0 k) = m ((c : Thread nD τ).loc main_arg10) (ix1 k) := by
  have e : (V4 m ρ c main_v14 : S1x64.Idx → Ideal .f32)
      = shapeCast S1x64 (W3 m ρ c (Proc.devRef .tc main_arg10) : S64.Idx → Ideal .f32) shapeCasts_S64_S1x64 := by
    show StableHlo.after hostOps1_1 (W3 m ρ c) (Proc.devRef .tc main_v14) = _
    after_results; rfl
  rw [e, W3_arg10]
  exact shapeCast_a_1a_apply _ _ 0 k
/-- The edges' source row as the slicing operations leave it, still there when the take is called. -/
private theorem W2_v1 (c : Dev nD) :
    (W2 m ρ c (Proc.devRef .tc main_v1) : IVec S1000000 32) = srcIdx (m ((c : Thread nD τ).loc main_arg1)) := by
  refine (W2_of_ne m ρ c main_v1 (by decide)).trans ?_
  show StableHlo.after hostOps0 (W0 m ρ c) (Proc.devRef .tc main_v1) = _
  unfold srcIdx
  after_results; rfl

/-- The edges' target row as the slicing operations leave it, still there after the take. -/
private theorem W3_v3 (c : Dev nD) :
    (W3 m ρ c (Proc.devRef .tc main_v3) : IVec S1000000 32) = dstIdx (m ((c : Thread nD τ).loc main_arg1)) := by
  have h32 : W3 m ρ c (Proc.devRef .tc main_v3) = W2 m ρ c (Proc.devRef .tc main_v3) := by stretch_keeps
  refine h32.trans ((W2_of_ne m ρ c main_v3 (by decide)).trans ?_)
  show StableHlo.after hostOps0 (W0 m ρ c) (Proc.devRef .tc main_v3) = _
  unfold dstIdx
  after_results; rfl

/-- Contents carried to a typed reference's buffer and back are themselves. -/
private theorem ofBuf_toBuf {T : BufTy} (x : StableHlo.TRef sig T) (v : T.Contents (Elt Ideal)) : x.ofBuf (x.toBuf v) = v := by
  obtain ⟨r, h, h2, h3⟩ := x
  subst h
  rfl
/-- At the literal references of the take's result and of its two operands the carrying is the identity. -/
private theorem toBuf_v7 (h1 h2 h3) (v : FVec Ideal S1000000x64 .f32) :
    (StableHlo.TRef.of (T := ⟨S1000000x64, .f32⟩) main_v7 h1 h2 h3).toBuf (Val := Elt Ideal) v = v := rfl
private theorem ofBuf_v1 (h1 h2 h3) (v : main_v1.ty.Contents (Elt Ideal)) :
    (StableHlo.TRef.of (T := ⟨S1000000, .i32⟩) main_v1 h1 h2 h3).ofBuf (Val := Elt Ideal) v = v := rfl
private theorem ofBuf_v6 (h1 h2 h3) (v : main_v6.ty.Contents (Elt Ideal)) :
    (StableHlo.TRef.of (T := ⟨S100000x64, .f32⟩) main_v6 h1 h2 h3).ofBuf (Val := Elt Ideal) v = v := rfl

set_option maxHeartbeats 2000000 in
/-- The take's result over any contents at its call: the rows of the array at `main_v6` taken at the indices at
    `main_v1`. -/
private theorem take_stage (W : Valuation τ sig (Elt Ideal)) :
    (StableHlo.after hostOps1 W (Proc.devRef .tc main_v7) : FVec Ideal S1000000x64 .f32)
      = takeRows (F := Ideal) (W (Proc.devRef .tc main_v6)) (W (Proc.devRef .tc main_v1)) := by
  unfold takeRows inRange wrapIdx
  after_results_simp
  simp only [ofBuf_toBuf]
  rw [toBuf_v7]
  simp only [ofBuf_v1, ofBuf_v6]

/-- The sum into the target nodes over any contents after the take: from zero, at the indices at `main_v3` laid out
    as a column, of the rows at `main_v7`. -/
private theorem agg_stage (W : Valuation τ sig (Elt Ideal)) :
    (StableHlo.after hostOps1_1 W (Proc.devRef .tc main_v10) : FVec Ideal S100000x64 .f32)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (W (Proc.devRef .tc main_v3) : IVec S1000000 32))
          (W (Proc.devRef .tc main_v7) : FVec Ideal S1000000x64 .f32) := by
  after_results

/-- The aggregate array: the message kernel's output array, taken at the edges' sources and summed into their
    targets. -/
theorem V4_v10 (c : Dev nD) :
    V4 m ρ c main_v10 = aggK (F := Ideal) ((dat0 (V1 m ρ) c).arrAt 5 cfg0.N) (m ((c : Thread nD τ).loc main_arg1)) := by
  have e : (V4 m ρ c main_v10 : FVec Ideal S100000x64 .f32)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0
            (W3 m ρ c (Proc.devRef .tc main_v3) : IVec S1000000 32))
          (W3 m ρ c (Proc.devRef .tc main_v7) : FVec Ideal S1000000x64 .f32) :=
    agg_stage (W3 m ρ c)
  have e7 : (W3 m ρ c (Proc.devRef .tc main_v7) : FVec Ideal S1000000x64 .f32)
      = takeRows (F := Ideal) (W2 m ρ c (Proc.devRef .tc main_v6)) (W2 m ρ c (Proc.devRef .tc main_v1)) :=
    take_stage (W2 m ρ c)
  have e6 : W2 m ρ c (Proc.devRef .tc main_v6) = (dat0 (V1 m ρ) c).arrAt 5 cfg0.N := W2_arr m ρ c 5
  rw [e, e7, W3_v3, W2_v1, e6]
  rfl

end Cert.KernelIdeal.Host

end
-- ==== Proof.Rows.lean ====
/-
  Taking rows of a 100000 × 64 array at 1000000 start indices.

  The row gather both programs use reads, for edge k and column q, the operand at row
  min(max(idx[k], 0), 99999) — the start index read signed and clamped into the array — and column q
  (`gather_rows_apply`, with `clampRow` the clamped row). `SrcInRange r` says every entry of an index vector r
  lies in 0 … 99999, as the two word comparisons a printed predicate makes.
-/
import Idealize.ShloMosaic.PureOps.Ideal
import Idealize.ShloMosaic.Lib.ValueIdx
import Idealize.ShloMosaic.Lib.StableHlo.Predicate

noncomputable section

namespace Cert.GraphLayer

open Idealize.ShloMosaic Idealize.ShloMosaic.ValueIdx

/-- The row edge k reads: its start index, signed, clamped into 0 … 99999. -/
def clampRow (ib : IVec ⟨2, ![1000000, 1]⟩ 32) (k : Fin 1000000) : Fin 100000 :=
  ⟨min (ib (ix2 k (0 : Fin 1))).toInt.toNat 99999, by omega⟩

/-- The row gather at (k, q): the operand at the clamped row of edge k, column q. The hypotheses are the printed
    dimension numbers (offset axis 1, collapsed operand axis 0, no batching, start indices along operand axis
    0, index vector on axis 1, slices of 1 × 64), each true of a printed record by `rfl`. -/
theorem gather_rows_apply {α : Type} (d : GatherDims ⟨2, ![100000, 64]⟩ ⟨2, ![1000000, 1]⟩ ⟨2, ![1000000, 64]⟩)
    (hoff : d.offsetDims = [1]) (hcoll : d.collapsedSliceDims = [0]) (hob : d.operandBatchingDims = [])
    (hsim : d.startIndexMap = [0]) (hivd : d.indexVectorDim = 1) (hss : d.sliceSizes = ![1, 64])
    (x : (⟨2, ![100000, 64]⟩ : Shape).Idx → α) (ib : IVec ⟨2, ![1000000, 1]⟩ 32) (k : Fin 1000000) (q : Fin 64) :
    Host.gather d x ib (ix2 k q) = x (ix2 (clampRow ib k) q) := by
  unfold Host.gather
  congr 1
  funext ax
  apply Fin.ext
  have hb0 : ∀ a : Fin 2, a ∉ d.operandBatchingDims := fun a => by rw [hob]; exact List.not_mem_nil
  match ax with
  | ⟨0, _⟩ =>
    -- operand axis 0 is collapsed and start-indexed: the clamped start index, no batching or offset part
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 k q) ib 0 + d.batchCoord (ix2 k q) 0 + d.offCoord (ix2 k q) 0 = min (ib (ix2 k (0 : Fin 1))).toInt.toNat 99999
    rw [GatherDims.batchCoord_eq_zero _ _ _ (hb0 0), GatherDims.offCoord_eq_zero _ _ _ hk, Nat.add_zero]
    unfold GatherDims.start
    rw [dif_pos hm, hsl]
    -- the start index is read at (k, 0): the result's batch axis 0 on the start indices' axis 0, component 0 on axis 1
    have hsi : d.siIdx (ix2 k q) ⟨d.startIndexMap.idxOf 0, List.idxOf_lt_length_iff.2 hm⟩ = ix2 k (0 : Fin 1) := by
      funext b
      match b with
      | ⟨0, _⟩ =>
        unfold GatherDims.siIdx
        rw [dif_neg (by rw [hivd]; exact Nat.zero_ne_one)]
        unfold GatherDims.siCoord
        apply Fin.ext
        simp only [Fin.val_cast]
        have hkept : ∀ X : Fin 2, X ∈ Shape.kept (⟨2, ![1000000, 64]⟩ : Shape) [1] → X = 0 := by decide
        have hall : ∀ X : Fin 2, X ∈ d.batchDims → X = 0 := fun X hX => by
          have hX' : X ∈ Shape.kept (⟨2, ![1000000, 64]⟩ : Shape) d.offsetDims := hX
          rw [hoff] at hX'
          exact hkept X hX'
        have e : ∀ X : Fin 2, X = 0 → ((ix2 k q : (⟨2, ![1000000, 64]⟩ : Shape).Idx) X).val = k.val :=
          fun X hX => by subst hX; rfl
        exact e _ (hall _ (List.getElem_mem _))
      | ⟨1, _⟩ =>
        unfold GatherDims.siIdx
        rw [dif_pos (by rw [hivd])]
        apply Fin.ext
        show List.idxOf (0 : Fin 2) d.startIndexMap = 0
        rw [hsim]
        rfl
    rw [hsi]
    rfl
  | ⟨1, _⟩ =>
    -- operand axis 1 is kept and not start-indexed: start 0, no batching part, the result's offset coordinate q
    have hm : (1 : Fin 2) ∉ d.startIndexMap := by rw [hsim]; decide
    have hk : (1 : Fin 2) ∈ d.sKept := by rw [GatherDims.mem_sKept, hcoll, hob]; decide
    show d.start (ix2 k q) ib 1 + d.batchCoord (ix2 k q) 1 + d.offCoord (ix2 k q) 1 = q.val
    rw [GatherDims.batchCoord_eq_zero _ _ _ (hb0 1)]
    unfold GatherDims.start
    rw [dif_neg hm]
    unfold GatherDims.offCoord
    rw [dif_pos hk, Nat.zero_add]
    have hall : ∀ X : Fin 2, X ∈ d.offsetDims → X = 1 := fun X hX => by
      rw [hoff] at hX; exact List.mem_singleton.mp hX
    have e : ∀ X : Fin 2, X = 1 → ((ix2 k q : (⟨2, ![1000000, 64]⟩ : Shape).Idx) X).val = q.val :=
      fun X hX => by subst hX; rfl
    exact e _ (hall _ (List.getElem_mem _))

/-- Every entry of the index vector lies in 0 … 99999 (signed): the two comparisons a predicate prints. -/
def SrcInRange (r : IVec ⟨1, ![1000000]⟩ 32) : Prop :=
  ∀ k : Fin 1000000, IntOp.cmpi .sge (r (ix1 k)) 0#32 = 1#1 ∧ IntOp.cmpi .slt (r (ix1 k)) 100000#32 = 1#1

/-- An in-range entry as a natural number below 100000. -/
theorem SrcInRange.toNat_lt {r : IVec ⟨1, ![1000000]⟩ 32} (h : SrcInRange r) (k : Fin 1000000) :
    (r (ix1 k)).toNat < 100000 := by
  obtain ⟨h0, h1⟩ := h k
  generalize r (ix1 k) = w at h0 h1 ⊢
  -- the two comparisons, as inequalities between signed readings
  have hs0 : (0#32 : BitVec 32).toInt ≤ w.toInt := by
    unfold IntOp.cmpi at h0
    exact of_decide_eq_true ((StableHlo.Predicate.ofBool_eq_one_iff _).mp h0)
  have hs1 : w.toInt < (100000#32 : BitVec 32).toInt := by
    unfold IntOp.cmpi at h1
    exact of_decide_eq_true ((StableHlo.Predicate.ofBool_eq_one_iff _).mp h1)
  rw [StableHlo.Predicate.toInt_ofNat_small 0 (by omega)] at hs0
  rw [StableHlo.Predicate.toInt_ofNat_small 100000 (by omega)] at hs1
  -- a word's signed reading is its unsigned one, less 2³² when the top bit is set: a set top bit would make it
  -- negative, so it is clear and the unsigned reading is the signed one, below 100000
  have hw := w.isLt
  by_cases hlt : 2 * w.toNat < 2 ^ 32
  · have e : w.toInt = (w.toNat : Int) := by rw [BitVec.toInt_eq_toNat_cond, if_pos hlt]
    rw [e] at hs1
    omega
  · have e : w.toInt = (w.toNat : Int) - ((2 ^ 32 : Nat) : Int) := by rw [BitVec.toInt_eq_toNat_cond, if_neg hlt]
    rw [e] at hs0
    omega

end Cert.GraphLayer

end
-- ==== Proof.TakeK.lean ====
/-
  The kernel program's take, where every source index is in range.

  With every entry of the index vector in 0 … 99999 no index is negative, so the wrap leaves it as it is, and
  the range test holds at every edge: the select keeps the gathered row everywhere and the fill pattern is
  never read. The taken array at (k, q) is then the operand at the clamped row of edge k, column q.
-/
import proofs.«414873_j6536940224659_4_alg».proof.Proof.HostTerms
import proofs.«414873_j6536940224659_4_alg».proof.Proof.Rows
import Idealize.ShloMosaic.Lib.ReduceAll
import Idealize.ShloMosaic.Lib.StableHlo.Predicate
import Idealize.ShloMosaic.Lib.Pipeline.Value

set_option maxRecDepth 16384

noncomputable section

namespace Cert.KernelIdeal.Host

open Cert.KernelIdeal Cert.KernelIdeal.Gen Cert.GraphLayer
open Idealize.ShloMosaic Idealize.ShloMosaic.ValueIdx

/-- A left fold by `and` from 1 over one-bit words that are all 1 is 1. -/
private theorem foldl_andi_all_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a List.mem_cons_self
    have e : IntOp.andi 1#1 (f a) = 1#1 := by rw [ha]; decide
    rw [List.foldl_cons, e]
    exact foldl_andi_all_one f l fun n hn => h n (List.mem_cons_of_mem _ hn)

/-- A word that is not negative is kept by the wrap: the select on "negative" takes its second branch. -/
private theorem wrap_word (w : BitVec 32) (h0 : IntOp.cmpi .sge w 0#32 = 1#1) :
    Scalar.select (IntOp.cmpi .slt w 0#32) (IntOp.addi w 100000#32) w = w := by
  have hn : ¬ IntOp.cmpi .slt w 0#32 = 1#1 := fun h => by
    rw [IntOp.cmpi_slt] at h
    rw [IntOp.cmpi_sge] at h0
    omega
  rw [eq_zero_of_ne_one hn, select_zero]

/-- A word in 0 … 99999 passes the range test 0 ≤ w ∧ w ≤ 99999. -/
private theorem range_word (w : BitVec 32) (h0 : IntOp.cmpi .sge w 0#32 = 1#1)
    (h1 : IntOp.cmpi .slt w 100000#32 = 1#1) :
    IntOp.andi (IntOp.cmpi .sge w 0#32) (IntOp.cmpi .sle w 99999#32) = 1#1 := by
  rw [IntOp.andi_eq_one]
  refine ⟨h0, ?_⟩
  rw [IntOp.cmpi_sle]
  rw [IntOp.cmpi_slt] at h1
  have a : (100000#32 : BitVec 32).toInt = 100000 := by decide
  have b : (99999#32 : BitVec 32).toInt = 99999 := by decide
  omega

/-- The wrapped index column at (k, 0): the select on "negative" of the k-th entry. -/
private theorem wrapIdx_apply (r : IVec S1000000 32) (k : Fin 1000000) :
    wrapIdx r (ix2 k (0 : Fin 1))
      = Scalar.select (IntOp.cmpi .slt (r (ix1 k)) 0#32) (IntOp.addi (r (ix1 k)) 100000#32) (r (ix1 k)) := by
  unfold wrapIdx
  rw [broadcastInDim_apply _ _ _ _ (ix1 k) (fun a => by match a with | ⟨0, _⟩ => rfl)]
  rfl

/-- With in-range sources the wrap changes nothing. -/
private theorem wrapIdx_of_inRange (r : IVec S1000000 32) (hr : SrcInRange r) (k : Fin 1000000) :
    wrapIdx r (ix2 k (0 : Fin 1)) = r (ix1 k) := by
  rw [wrapIdx_apply]
  exact wrap_word _ (hr k).1

/-- With in-range sources the range test holds at every edge. -/
private theorem inRange_wrap (r : IVec S1000000 32) (hr : SrcInRange r) (k : Fin 1000000) :
    inRange (wrapIdx r) (ix1 k) = 1#1 := by
  unfold inRange
  rw [Host.reduce_eq_foldl]
  refine foldl_andi_all_one _ _ fun i _ => ?_
  -- every index of the 1000000 × 1 mask is (a, 0)
  obtain ⟨a, rfl⟩ : ∃ a : Fin 1000000, i = ix2 a (0 : Fin 1) := by
    have h1 : i 1 = (0 : Fin 1) := Fin.ext (by have := idx2_lt1 i; show (i 1).val = 0; omega)
    exact ⟨i 0, (eq_ix2 i).trans (congrArg (ix2 (i 0)) h1)⟩
  show IntOp.andi (IntOp.cmpi .sge (wrapIdx r (ix2 a (0 : Fin 1))) 0#32)
      (IntOp.cmpi .sle (wrapIdx r (ix2 a (0 : Fin 1))) 99999#32) = 1#1
  rw [wrapIdx_of_inRange r hr]
  exact range_word _ (hr a).1 (hr a).2

/-- With in-range sources the take is the plain row gather. -/
theorem takeRows_apply (Y : FVec Ideal S100000x64 .f32) (r : IVec S1000000 32) (hr : SrcInRange r)
    (k : Fin 1000000) (q : Fin 64) :
    takeRows (F := Ideal) Y r (ix2 k q) = Y (ix2 (clampRow (wrapIdx r) k) q) := by
  unfold takeRows
  rw [select_apply]
  -- the mask at (k, q) is the range test of edge k
  have hm : broadcastInDim S1000000x64 ![0] bcast_S1000000_S1000000x64_0 (inRange (wrapIdx r)) (ix2 k q) = 1#1 := by
    rw [broadcastInDim_apply _ _ _ _ (ix1 k) (fun a => by match a with | ⟨0, _⟩ => rfl)]
    exact inRange_wrap r hr k
  rw [hm, select_one]
  exact gather_rows_apply _ rfl rfl rfl rfl rfl rfl Y (wrapIdx r) k q

end Cert.KernelIdeal.Host

end
-- ==== Proof.RefMsg.lean ====
/-
  The reference's per-edge messages at one element.

  The reference gathers, for every edge, its source node's feature row (start index signed, wrapped once when
  negative, clamped), and applies the message network to the gathered 1000000 × 64 array: a product with the
  first matrix, the first bias broadcast along the rows, a ReLU, a product with the second matrix, the second
  bias. At edge k and column q this is the message network of the clamped source row of edge k.
-/
import proofs.«414873_j6536940224659_4_alg».proof.Proof.Gen.ReferenceIdeal.Read
import proofs.«414873_j6536940224659_4_alg».proof.Proof.Rows
import proofs.«414873_j6536940224659_4_alg».proof.Proof.Spec
import Idealize.ShloMosaic.Lib.Pipeline.Value
import Idealize.ShloMosaic.Lib.ValueLayout

set_option maxRecDepth 16384

noncomputable section

open scoped BigOperators

namespace Cert.ReferenceIdeal.RefValue

open Cert.ReferenceIdeal Cert.ReferenceIdeal.Read Cert.GraphLayer
open Idealize.ShloMosaic Idealize.ShloMosaic.ValueIdx

/-- The gathered array at edge k, column i: the clamped source row of edge k. -/
private theorem gathered_apply (x : FVec Ideal S100000x64 .f32) (e : IVec S2x1000000 32) (k : Fin 1000000) (i : Fin 64) :
    val_main_v10 (F := Ideal) x e (ix2 k i) = x (ix2 (clampRow (val_main_v9 (F := Ideal) e) k) i) := by
  unfold val_main_v10
  exact gather_rows_apply _ rfl rfl rfl rfl rfl rfl x (val_main_v9 (F := Ideal) e) k i

/-- The first product reads its left operand at (k, i) … -/
private theorem lidx11 (k : Fin 1000000) (q i : Fin 64) : lidx_main_v11 (ix2 k q) i = ix2 k i :=
  funext fun a => Fin.ext (by match a with | ⟨0, _⟩ => rfl | ⟨1, _⟩ => rfl)
/-- … and its right operand at (i, q). -/
private theorem ridx11 (k : Fin 1000000) (q i : Fin 64) : ridx_main_v11 (ix2 k q) i = ix2 i q :=
  funext fun a => Fin.ext (by match a with | ⟨0, _⟩ => rfl | ⟨1, _⟩ => rfl)
/-- The second product reads its left operand at (k, i) … -/
private theorem lidx16 (k : Fin 1000000) (q i : Fin 64) : lidx_main_v16 (ix2 k q) i = ix2 k i :=
  funext fun a => Fin.ext (by match a with | ⟨0, _⟩ => rfl | ⟨1, _⟩ => rfl)
/-- … and its right operand at (i, q). -/
private theorem ridx16 (k : Fin 1000000) (q i : Fin 64) : ridx_main_v16 (ix2 k q) i = ix2 i q :=
  funext fun a => Fin.ext (by match a with | ⟨0, _⟩ => rfl | ⟨1, _⟩ => rfl)
/-- The first bias, broadcast along the rows, reads at column q. -/
private theorem bidx13 (k : Fin 1000000) (q : Fin 64) : idx_main_v12 (idx_main_v13 (ix2 k q)) = ix1 q :=
  funext fun a => Fin.ext (by match a with | ⟨0, _⟩ => rfl)
/-- The second bias, broadcast along the rows, reads at column q. -/
private theorem bidx18 (k : Fin 1000000) (q : Fin 64) : idx_main_v17 (idx_main_v18 (ix2 k q)) = ix1 q :=
  funext fun a => Fin.ext (by match a with | ⟨0, _⟩ => rfl)

/-- The reference's message array at edge k, column q. -/
theorem msg_apply (x : FVec Ideal S100000x64 .f32) (e : IVec S2x1000000 32) (w1 : FVec Ideal S64x64 .f32)
    (b1 : FVec Ideal S64 .f32) (w2 : FVec Ideal S64x64 .f32) (b2 : FVec Ideal S64 .f32) (k : Fin 1000000) (q : Fin 64) :
    val_main_v19 (F := Ideal) x e w1 b1 w2 b2 (ix2 k q)
      = msgRow w1 (fun i => b1 (ix1 i)) w2 (fun i => b2 (ix1 i))
          (fun i => x (ix2 (clampRow (val_main_v9 (F := Ideal) e) k) i)) q := by
  rw [val_main_v19_apply, val_main_v16_apply, val_main_v18_apply, val_main_v17_apply]
  simp only [lidx16, ridx16, val_main_v15_apply, val_main_v14_apply, val_main_v11_apply, val_main_v13_apply,
    val_main_v12_apply, val_main_call0_v0_apply, val_main_call0_cst_apply, lidx11, ridx11, gathered_apply, bidx13,
    bidx18, Ideal.addf_def, Ideal.maximumf_def, Ideal.ofBits_def, Ideal.ofBits_zero_f32]
  unfold msgRow dense
  rfl

end Cert.ReferenceIdeal.RefValue

end
-- ==== Proof.Bridge.lean ====
/-
  The two aggregate arrays are equal.

  The kernel program computes the message network once per node and then takes, for every edge, the message
  row of the edge's source node; the reference takes the source node's feature row and applies the message
  network per edge. The message network acts row by row, so it commutes with taking rows: with every source
  index in range (so that the kernel's take never fills), the two 1000000 × 64 message arrays agree entry by
  entry, both reading the clamped source row of the SAME start-index column. The scatter-sum into the target
  nodes is the same operation on both sides, applied to equal updates at equal target indices from the same
  zero array.
-/
import proofs.«414873_j6536940224659_4_alg».proof.Proof.HostTerms
import proofs.«414873_j6536940224659_4_alg».proof.Proof.TakeK
import proofs.«414873_j6536940224659_4_alg».proof.Proof.RefMsg

set_option maxRecDepth 16384

noncomputable section

open scoped BigOperators

namespace Cert.Bridge

open Cert.GraphLayer
open Idealize.ShloMosaic Idealize.ShloMosaic.ValueIdx

/-- The kernel program's wrapped source column is the reference's start-index column: the same slice of the
    edge table, reshaped, wrapped once when negative and laid out as a column. -/
private theorem wrap_eq (e : IVec Cert.ReferenceIdeal.S2x1000000 32) :
    Cert.KernelIdeal.Host.wrapIdx (Cert.KernelIdeal.Host.srcIdx e)
      = Cert.ReferenceIdeal.Read.val_main_v9 (F := Ideal) e := rfl

/-- The two update arrays agree entry by entry: at edge k, column q both are the message network of the
    clamped source row of edge k. -/
private theorem updates_eq (x : FVec Ideal Cert.ReferenceIdeal.S100000x64 .f32) (e : IVec Cert.ReferenceIdeal.S2x1000000 32)
    (w1 : FVec Ideal Cert.ReferenceIdeal.S64x64 .f32) (b1 : FVec Ideal Cert.ReferenceIdeal.S64 .f32)
    (w2 : FVec Ideal Cert.ReferenceIdeal.S64x64 .f32) (b2 : FVec Ideal Cert.ReferenceIdeal.S64 .f32)
    (hr : SrcInRange (Cert.KernelIdeal.Host.srcIdx e)) :
    Cert.KernelIdeal.Host.takeRows (F := Ideal)
        (fun i => msgRow w1 (fun k => b1 (ix1 k)) w2 (fun k => b2 (ix1 k)) (fun k => x (ix2 (i 0) k)) (i 1))
        (Cert.KernelIdeal.Host.srcIdx e)
      = Cert.ReferenceIdeal.Read.val_main_v19 (F := Ideal) x e w1 b1 w2 b2 := by
  funext i
  obtain ⟨k, q, rfl⟩ : ∃ (k : Fin 1000000) (q : Fin 64), i = ix2 k q := ⟨i 0, i 1, eq_ix2 i⟩
  rw [Cert.KernelIdeal.Host.takeRows_apply _ _ hr k q, Cert.ReferenceIdeal.RefValue.msg_apply x e w1 b1 w2 b2 k q,
    wrap_eq e]

/-- The kernel program's aggregate of the node-level message array is the reference's aggregate. -/
theorem agg_eq (x : FVec Ideal Cert.ReferenceIdeal.S100000x64 .f32) (e : IVec Cert.ReferenceIdeal.S2x1000000 32)
    (w1 : FVec Ideal Cert.ReferenceIdeal.S64x64 .f32) (b1 : FVec Ideal Cert.ReferenceIdeal.S64 .f32)
    (w2 : FVec Ideal Cert.ReferenceIdeal.S64x64 .f32) (b2 : FVec Ideal Cert.ReferenceIdeal.S64 .f32)
    (hr : SrcInRange (Cert.KernelIdeal.Host.srcIdx e)) :
    Cert.KernelIdeal.Host.aggK (F := Ideal)
        (fun i => msgRow w1 (fun k => b1 (ix1 k)) w2 (fun k => b2 (ix1 k)) (fun k => x (ix2 (i 0) k)) (i 1)) e
      = Cert.ReferenceIdeal.Read.val_main_v22 (F := Ideal) x e w1 b1 w2 b2 := by
  unfold Cert.KernelIdeal.Host.aggK Cert.ReferenceIdeal.Read.val_main_v22
  rw [updates_eq x e w1 b1 w2 b2 hr]
  rfl

end Cert.Bridge

end
-- ==== Proof.RefOut.lean ====
/-
  The reference's result at one element, over its aggregate array.

  After the scatter-sum the reference concatenates each node's feature row with its aggregated row (128
  entries), multiplies by the 128 × 64 matrix, adds the bias, applies the ReLU, multiplies by the last matrix
  and adds the last bias. At node n and column q this is the output network, in the concatenated arrangement,
  of row n of the node array and row n of the aggregate array.
-/
import proofs.«414873_j6536940224659_4_alg».proof.Proof.Gen.ReferenceIdeal.Read
import proofs.«414873_j6536940224659_4_alg».proof.Proof.Spec
import Idealize.ShloMosaic.Lib.Pipeline.Value
import Idealize.ShloMosaic.Lib.ValueLayout

set_option maxRecDepth 16384

noncomputable section

open scoped BigOperators

namespace Cert.ReferenceIdeal.RefValue

open Cert.ReferenceIdeal Cert.ReferenceIdeal.Read Cert.GraphLayer
open Idealize.ShloMosaic Idealize.ShloMosaic.ValueIdx

/-- The concatenated array at row `n`, column `c`: the node's row on the first 64 columns, the aggregate's row
    on the last 64. -/
private theorem cat_apply (x : FVec Ideal S100000x64 .f32) (e : IVec S2x1000000 32) (w1 : FVec Ideal S64x64 .f32)
    (b1 : FVec Ideal S64 .f32) (w2 : FVec Ideal S64x64 .f32) (b2 : FVec Ideal S64 .f32) (n : Fin 100000) (c : Fin 128) :
    val_main_v23 (F := Ideal) x e w1 b1 w2 b2 (ix2 n c)
      = catRow (fun k => x (ix2 n k)) (fun k => val_main_v22 (F := Ideal) x e w1 b1 w2 b2 (ix2 n k)) c := by
  unfold val_main_v23 catRow
  generalize val_main_v22 (F := Ideal) x e w1 b1 w2 b2 = y
  refine Fin.addCases (m := 64) (n := 64) (fun i => ?_) (fun i => ?_) c
  · rw [Fin.addCases_left]
    exact concatenate_pair_apply_left (1 : Fin S100000x128.rank) x y
      Gen.concatenates_S100000x64_S100000x64_S100000x128_d1 (ix2 n (Fin.castAdd 64 i)) rfl (ix2 n i)
      (fun b => match b with
        | ⟨0, _⟩ => rfl
        | ⟨1, _⟩ => rfl)
  · rw [Fin.addCases_right]
    exact concatenate_pair_apply_right (1 : Fin S100000x128.rank) x y
      Gen.concatenates_S100000x64_S100000x64_S100000x128_d1 (ix2 n (Fin.natAdd 64 i)) rfl rfl (ix2 n i)
      (fun b hb => match b, hb with
        | ⟨0, _⟩, _ => rfl
        | ⟨1, _⟩, hb => absurd rfl hb)
      (by show i.val + 64 = 64 + i.val; omega)

/-- The first layer before the ReLU at row `n`, column `k`: the concatenated row against the matrix's column, plus
    the bias. -/
private theorem pre_apply (x : FVec Ideal S100000x64 .f32) (e : IVec S2x1000000 32) (w1 : FVec Ideal S64x64 .f32)
    (b1 : FVec Ideal S64 .f32) (w2 : FVec Ideal S64x64 .f32) (b2 : FVec Ideal S64 .f32) (W : FVec Ideal S128x64 .f32)
    (ob1 : FVec Ideal S64 .f32) (n : Fin 100000) (k : Fin 64) :
    val_main_v27 (F := Ideal) x e w1 b1 w2 b2 W ob1 (ix2 n k)
      = denseCat (fun k => x (ix2 n k)) (fun k => val_main_v22 (F := Ideal) x e w1 b1 w2 b2 (ix2 n k)) W
          (fun k => ob1 (ix1 k)) k := by
  have hl : ∀ c : Fin 128, lidx_main_v24 (ix2 n k) c = ix2 n c := fun c =>
    funext fun a => Fin.ext (by match a with | ⟨0, _⟩ => rfl | ⟨1, _⟩ => rfl)
  have hr : ∀ c : Fin 128, ridx_main_v24 (ix2 n k) c = ix2 c k := fun c =>
    funext fun a => Fin.ext (by match a with | ⟨0, _⟩ => rfl | ⟨1, _⟩ => rfl)
  have hb : idx_main_v25 (idx_main_v26 (ix2 n k)) = ix1 k :=
    funext fun a => Fin.ext (by match a with | ⟨0, _⟩ => rfl)
  rw [val_main_v27_apply, val_main_v24_apply, val_main_v26_apply, val_main_v25_apply, Ideal.addf_def, hb]
  unfold denseCat
  refine congrArg (· + ob1 (ix1 k)) (Finset.sum_congr rfl fun c _ => ?_)
  rw [hl, hr, cat_apply]

/-- The first layer after the ReLU at row `n`, column `k`. -/
private theorem relu_apply (x : FVec Ideal S100000x64 .f32) (e : IVec S2x1000000 32) (w1 : FVec Ideal S64x64 .f32)
    (b1 : FVec Ideal S64 .f32) (w2 : FVec Ideal S64x64 .f32) (b2 : FVec Ideal S64 .f32) (W : FVec Ideal S128x64 .f32)
    (ob1 : FVec Ideal S64 .f32) (n : Fin 100000) (k : Fin 64) :
    val_main_v28 (F := Ideal) x e w1 b1 w2 b2 W ob1 (ix2 n k)
      = max (denseCat (fun k => x (ix2 n k)) (fun k => val_main_v22 (F := Ideal) x e w1 b1 w2 b2 (ix2 n k)) W
          (fun k => ob1 (ix1 k)) k) 0 := by
  rw [val_main_v28_apply, pre_apply, val_main_call1_v0_apply, val_main_call1_cst_apply, Ideal.maximumf_def,
    Ideal.ofBits_def, Ideal.ofBits_zero_f32]

/-- The reference's result at node `i 0`, column `i 1`. -/
theorem out_apply (x : FVec Ideal S100000x64 .f32) (e : IVec S2x1000000 32) (w1 : FVec Ideal S64x64 .f32)
    (b1 : FVec Ideal S64 .f32) (w2 : FVec Ideal S64x64 .f32) (b2 : FVec Ideal S64 .f32) (W : FVec Ideal S128x64 .f32)
    (ob1 : FVec Ideal S64 .f32) (ow2 : FVec Ideal S64x64 .f32) (ob2 : FVec Ideal S64 .f32) (i : S100000x64.Idx) :
    val_main_v32 (F := Ideal) x e w1 b1 w2 b2 W ob1 ow2 ob2 i
      = outRowR W (fun k => ob1 (ix1 k)) ow2 (fun k => ob2 (ix1 k)) (fun k => x (ix2 (i 0) k))
          (fun k => val_main_v22 (F := Ideal) x e w1 b1 w2 b2 (ix2 (i 0) k)) (i 1) := by
  obtain ⟨n, q, rfl⟩ : ∃ (n : Fin 100000) (q : Fin 64), i = ix2 n q := ⟨i 0, i 1, eq_ix2 i⟩
  show val_main_v32 (F := Ideal) x e w1 b1 w2 b2 W ob1 ow2 ob2 (ix2 n q)
      = outRowR W (fun k => ob1 (ix1 k)) ow2 (fun k => ob2 (ix1 k)) (fun k => x (ix2 n k))
          (fun k => val_main_v22 (F := Ideal) x e w1 b1 w2 b2 (ix2 n k)) q
  have hl : ∀ k : Fin 64, lidx_main_v29 (ix2 n q) k = ix2 n k := fun k =>
    funext fun a => Fin.ext (by match a with | ⟨0, _⟩ => rfl | ⟨1, _⟩ => rfl)
  have hr : ∀ k : Fin 64, ridx_main_v29 (ix2 n q) k = ix2 k q := fun k =>
    funext fun a => Fin.ext (by match a with | ⟨0, _⟩ => rfl | ⟨1, _⟩ => rfl)
  have hb : idx_main_v30 (idx_main_v31 (ix2 n q)) = ix1 q :=
    funext fun a => Fin.ext (by match a with | ⟨0, _⟩ => rfl)
  rw [val_main_v32_apply, val_main_v29_apply, val_main_v31_apply, val_main_v30_apply, Ideal.addf_def, hb]
  unfold outRowR dense
  refine congrArg (· + ob2 (ix1 q)) (Finset.sum_congr rfl fun k _ => ?_)
  rw [hl, hr, relu_apply]

end Cert.ReferenceIdeal.RefValue

end
-- ==== Proof.PreDecode.lean ====
/-
  The precondition, decoded: every edge's source-node index lies in 0 … 99999.

  The printed precondition is a chain of conjunctions ending in "every float input is finite, and every entry
  of the edge table's source row is at least 0 and below 100000". Its last conjunct is an all-reduction of the
  entrywise conjunction of the two comparisons over the source row, so where the precondition holds both
  comparisons hold at every edge.
-/
import proofs.«414873_j6536940224659_4_alg».proof.Defs
import proofs.«414873_j6536940224659_4_alg».proof.Proof.Gen.Pre_finite_inputs
import proofs.«414873_j6536940224659_4_alg».proof.Proof.HostTerms
import proofs.«414873_j6536940224659_4_alg».proof.Proof.Rows
import Idealize.ShloMosaic.Lib.ReduceAll
import Idealize.ShloMosaic.Lib.Affine

set_option maxRecDepth 16384

noncomputable section

namespace Cert.KernelIdeal.Host

open Cert.KernelIdeal Cert.GraphLayer
open Idealize.ShloMosaic Idealize.ShloMosaic.TcCoe Idealize.ShloMosaic.ValueIdx Idealize.SL.Sem

/-- Under the precondition every source index of the launch memory's edge table is in range. -/
theorem src_in_range (m : (ℓ : Loc nD τ sig) → Buf (Elt Ideal) ℓ) (h : Cert.Pre_KernelIdeal m) (c : Dev nD) :
    SrcInRange (srcIdx (m ((c : Thread nD τ).loc main_arg1))) := by
  intro k
  -- the predicate's one entry is 1
  have e := congrFun (h c) ix0
  unfold Cert.Pre_finite_inputs.fn at e
  unfold Cert.Pre_finite_inputs.fn_part1 at e
  unfold Cert.Pre_finite_inputs.fn_part2 at e
  unfold Cert.Pre_finite_inputs.fn_part3 at e
  -- its outermost conjunction: the right conjunct is the all-reduction over the source row
  have e1 := (IntOp.andi_eq_one.mp e).2
  haveI : Subsingleton Cert.Pre_finite_inputs.S_.Idx := ⟨fun a b => funext fun d => d.elim0⟩
  -- an all-reduction that is 1 met a 1 at every edge, in particular at edge k
  have e2 := Host.reduce_andi_all _ _ _ _ _ e1 (ix1 k)
  -- there the entry is the conjunction of the two comparisons of the source index
  obtain ⟨ha, hb⟩ := IntOp.andi_eq_one.mp e2
  exact ⟨ha, hb⟩

end Cert.KernelIdeal.Host

end
-- ==== Proof.KValue.lean ====
/-
  The kernel program's result array is the reference's result term.

  The result buffer ends at what the output kernel's pipeline leaves in its output array: row n is the output
  network, in the kernel's arrangement (top and bottom halves of the 128 × 64 matrix), of row n of the node
  array and row n of the aggregate array; the aggregate array is the take-and-sum of the message kernel's output
  array, whose row n is the message network of row n of the node array. Under the precondition (every source
  index in range) that aggregate is the reference's aggregate, and the split product over 64 + 64 columns is the
  reference's product over the 128 concatenated columns: the reference's result, index by index.
-/
import proofs.«414873_j6536940224659_4_alg».proof.Proof.Gen.KernelIdeal.Frame
import proofs.«414873_j6536940224659_4_alg».proof.Proof.Region0
import proofs.«414873_j6536940224659_4_alg».proof.Proof.Region1
import proofs.«414873_j6536940224659_4_alg».proof.Proof.HostK
import proofs.«414873_j6536940224659_4_alg».proof.Proof.Bridge
import proofs.«414873_j6536940224659_4_alg».proof.Proof.RefOut
import proofs.«414873_j6536940224659_4_alg».proof.Proof.PreDecode

set_option maxRecDepth 16384

noncomputable section

open scoped BigOperators

namespace Cert.KernelIdeal.KValue

open Cert.KernelIdeal Cert.KernelIdeal.Gen Cert.KernelIdeal.Host Cert.GraphLayer
open Idealize.ShloMosaic Idealize.ShloMosaic.TcCoe Idealize.ShloMosaic.ValueIdx Idealize.SL.Sem

variable (m : (ℓ : Loc nD τ sig) → Buf (Elt Ideal) ℓ) (ρ : Dev nD → PrngReg)

/-- The message kernel's output array in terms of the launch memory: row n is the message network of row n of
    the node array. -/
theorem msg_array (c : Dev nD) :
    (dat0 (F := Ideal) (V1 m ρ) c).arrAt 5 cfg0.N
      = fun i => msgRow (m ((c : Thread nD τ).loc main_arg3)) (fun k => m ((c : Thread nD τ).loc main_arg4) (ix1 k))
          (m ((c : Thread nD τ).loc main_arg5)) (fun k => m ((c : Thread nD τ).loc main_arg6) (ix1 k))
          (fun k => m ((c : Thread nD τ).loc main_arg0) (ix2 (i 0) k)) (i 1) := by
  have h4 : (fun k : Fin 64 => V1 m ρ c main_v4 (ix2 0 k)) = fun k => m ((c : Thread nD τ).loc main_arg4) (ix1 k) :=
    funext (V1_v4 m ρ c)
  have h5 : (fun k : Fin 64 => V1 m ρ c main_v5 (ix2 0 k)) = fun k => m ((c : Thread nD τ).loc main_arg6) (ix1 k) :=
    funext (V1_v5 m ρ c)
  rw [Region0.arr0]
  unfold Region0.msgArr
  rw [h4, h5, V1_arg0, V1_arg3, V1_arg5]
  rfl

/-- The result buffer's final contents are the reference's result term of the launch memory's arguments. -/
theorem result_eq (h : Cert.Pre_KernelIdeal m) (c : Dev nD) :
    W5 m ρ c (Proc.devRef .tc main_v15)
      = Cert.ReferenceIdeal.Read.val_main_v32 (F := Ideal) (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  have h13 : (fun k : Fin 64 => V4 m ρ c main_v13 (ix2 0 k)) = fun k => m ((c : Thread nD τ).loc main_arg8) (ix1 k) :=
    funext (V4_v13 m ρ c)
  have h14 : (fun k : Fin 64 => V4 m ρ c main_v14 (ix2 0 k)) = fun k => m ((c : Thread nD τ).loc main_arg10) (ix1 k) :=
    funext (V4_v14 m ρ c)
  have hagg : aggK (F := Ideal) ((dat0 (F := Ideal) (V1 m ρ) c).arrAt 5 cfg0.N) (m ((c : Thread nD τ).loc main_arg1))
      = Cert.ReferenceIdeal.Read.val_main_v22 (F := Ideal) (m ((c : Thread nD τ).loc main_arg0))
          (m ((c : Thread nD τ).loc main_arg1)) (m ((c : Thread nD τ).loc main_arg3)) (m ((c : Thread nD τ).loc main_arg4))
          (m ((c : Thread nD τ).loc main_arg5)) (m ((c : Thread nD τ).loc main_arg6)) := by
    rw [msg_array]
    exact Cert.Bridge.agg_eq _ _ _ _ _ _ (src_in_range m h c)
  refine (W5_arr m ρ c 7).trans ?_
  rw [Region1.arr1]
  unfold Region1.outArr
  rw [h13, h14, V4_arg0, V4_arg9, V4_v11, V4_v12, V4_v10, hagg]
  funext i
  rw [Cert.ReferenceIdeal.RefValue.out_apply]
  exact (outRowR_eq _ _ _ _ _ _ _).symm

end Cert.KernelIdeal.KValue

end
-- ==== Proof.lean ====
/-
  The message-passing layer: a Pallas program of two kernels against its jnp reference, equal over the
  extended reals wherever every float input is finite and every edge's source-node index lies in 0 … 99999.

  The reference gathers each edge's source row, applies the message network per edge, sums the messages into
  their target nodes, concatenates each node's row with its aggregate and applies the output network. The
  kernel program applies the message network once per node (a kernel over ten blocks of 10000 rows), takes the
  message row of each edge's source on the host (filling out-of-range sources, which the precondition
  excludes), sums into the targets with the same scatter, and applies the output network with the 128 × 64
  matrix split into its halves (a second kernel over the same ten blocks). The message network acts row by
  row, so it commutes with the row gather; the split product is the concatenated product because a sum over
  128 = 64 + 64 columns splits. The three frames are the generated ones (the reference's is its generated run
  with the result dropped); the idealization ledger is empty.
-/
import proofs.«414873_j6536940224659_4_alg».proof.Defs
import proofs.«414873_j6536940224659_4_alg».proof.Proof.Gen.Kernel
import proofs.«414873_j6536940224659_4_alg».proof.Proof.Gen.Kernel.Skeleton
import proofs.«414873_j6536940224659_4_alg».proof.Proof.Gen.Kernel.Launch
import proofs.«414873_j6536940224659_4_alg».proof.Proof.Gen.Kernel.Points
import proofs.«414873_j6536940224659_4_alg».proof.Proof.Gen.Kernel.Frame
import proofs.«414873_j6536940224659_4_alg».proof.Proof.Gen.KernelIdeal
import proofs.«414873_j6536940224659_4_alg».proof.Proof.Gen.KernelIdeal.Skeleton
import proofs.«414873_j6536940224659_4_alg».proof.Proof.Gen.KernelIdeal.Launch
import proofs.«414873_j6536940224659_4_alg».proof.Proof.Gen.KernelIdeal.Points
import proofs.«414873_j6536940224659_4_alg».proof.Proof.Gen.KernelIdeal.Frame
import proofs.«414873_j6536940224659_4_alg».proof.Proof.Gen.ReferenceIdeal
import proofs.«414873_j6536940224659_4_alg».proof.Proof.Gen.ReferenceIdeal.Run
import proofs.«414873_j6536940224659_4_alg».proof.Proof.Gen.ReferenceIdeal.Read
import proofs.«414873_j6536940224659_4_alg».proof.Proof.Gen.Pre_finite_inputs
import proofs.«414873_j6536940224659_4_alg».proof.Proof.KRun
import proofs.«414873_j6536940224659_4_alg».proof.Proof.KValue
import Idealize.ShloMosaic.Adequacy
import Idealize.ShloMosaic.Init

noncomputable section

namespace Cert.Proof

open Idealize.ShloMosaic Idealize.SL.Sem Cert.Kernel

/-- Over the extended reals both programs run and end with equal results: the kernel program's launch with the
    result named (its final contents are the reference's result term of the launch memory, `KValue.result_eq`),
    beside the reference's generated run, on arguments that agree. -/
theorem algebraic : Cert.algebraic_KernelIdeal_ReferenceIdeal := by
  intro m ρ m' ρ' hpre hagree
  refine ⟨fun c => Cert.KernelIdeal.Gen.W5 m ρ c (Proc.devRef .tc Cert.KernelIdeal.main_v15),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v32_eq, a0, a1, a3, a4, a5, a6, a7, a8, a9, a10]
  exact (Cert.KernelIdeal.KValue.result_eq m ρ hpre c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
